-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S6400000 : Shape := ⟨1, ![6400000]⟩
abbrev S1x3 : Shape := ⟨2, ![1, 3]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S1x3 : S_.BroadcastsInDim S1x3 (![] : Fin 0 → Fin S1x3.rank)
  reducesTo_S1x3_S_d0_1 : S1x3.ReducesTo [0, 1] S_
  bcast_S_S6400000 : S_.BroadcastsInDim S6400000 (![] : Fin 0 → Fin S6400000.rank)
  reducesTo_S6400000_S_d0 : S6400000.ReducesTo [0] S_

variable [Facts]

def fn_part1 {F : FTy → Type} [FloatOps F] (main_arg2 : IVec S6400000 32) (main_v15 : IVec S_ 1) (main_c_5 : IVec S_ 32) : IVec S_ 1 :=
  let main_v16 : IVec S6400000 32 := broadcastInDim S6400000 ![] bcast_S_S6400000 main_c_5
  let main_v17 : IVec S6400000 1 := cmpi .sge main_arg2 main_v16
  let main_c_6 : IVec S_ 32 := constantI S_ 32 100000#32
  let main_v18 : IVec S6400000 32 := broadcastInDim S6400000 ![] bcast_S_S6400000 main_c_6
  let main_v19 : IVec S6400000 1 := cmpi .slt main_arg2 main_v18
  let main_v20 : IVec S6400000 1 := andi main_v17 main_v19
  let main_c_7 : IVec S_ 1 := constantI S_ 1 1#1
  let main_v21 : IVec S_ 1 := (fun x v => Host.reduce IntOp.andi x v reducesTo_S6400000_S_d0 h_S_) main_v20 main_c_7
  let main_v22 : IVec S_ 1 := andi main_v15 main_v21
  main_v22

def fn {F : FTy → Type} [FloatOps F] (main_arg0 : FVec F S100000x3 .f32) (main_arg1 : IVec S6400000 32) (main_arg2 : IVec S6400000 32) (main_arg3 : FVec F S1x3 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S1x3 .f32 := Host.absf main_arg3
  let main_cst_0 : FVec F S_ .f32 := constant S_ .f32 0x7F800000#32
  let main_v5 : FVec F S1x3 .f32 := broadcastInDim S1x3 ![] bcast_S_S1x3 main_cst_0
  let main_v6 : IVec S1x3 1 := cmpf .olt main_v4 main_v5
  let main_c_1 : IVec S_ 1 := constantI S_ 1 1#1
  let main_v7 : IVec S_ 1 := (fun x v => Host.reduce IntOp.andi x v reducesTo_S1x3_S_d0_1 h_S_) main_v6 main_c_1
  let main_v8 : IVec S_ 1 := andi main_v3 main_v7
  let main_c_2 : IVec S_ 32 := constantI S_ 32 4294867296#32
  let main_v9 : IVec S6400000 32 := broadcastInDim S6400000 ![] bcast_S_S6400000 main_c_2
  let main_v10 : IVec S6400000 1 := cmpi .sge main_arg1 main_v9
  let main_c_3 : IVec S_ 32 := constantI S_ 32 100000#32
  let main_v11 : IVec S6400000 32 := broadcastInDim S6400000 ![] bcast_S_S6400000 main_c_3
  let main_v12 : IVec S6400000 1 := cmpi .slt main_arg1 main_v11
  let main_v13 : IVec S6400000 1 := andi main_v10 main_v12
  let main_c_4 : IVec S_ 1 := constantI S_ 1 1#1
  let main_v14 : IVec S_ 1 := (fun x v => Host.reduce IntOp.andi x v reducesTo_S6400000_S_d0 h_S_) main_v13 main_c_4
  let main_v15 : IVec S_ 1 := andi main_v8 main_v14
  let main_c_5 : IVec S_ 32 := constantI S_ 32 4294867296#32
  fn_part1 (F := F) main_arg2 main_v15 main_c_5
-- ==== Kernel.lean ====
abbrev S100000x3 : Shape := ⟨2, ![100000, 3]⟩
abbrev S6400000 : Shape := ⟨1, ![6400000]⟩
abbrev S1x3 : Shape := ⟨2, ![1, 3]⟩
abbrev S3x100000 : Shape := ⟨2, ![3, 100000]⟩
abbrev S_ : Shape := ⟨0, ![]⟩
abbrev S6400000x1 : Shape := ⟨2, ![6400000, 1]⟩
abbrev S1 : Shape := ⟨1, ![1]⟩
abbrev S1x1 : Shape := ⟨2, ![1, 1]⟩
abbrev S3x6400000 : Shape := ⟨2, ![3, 6400000]⟩
abbrev S3x1 : Shape := ⟨2, ![3, 1]⟩
abbrev S1x6400000 : Shape := ⟨2, ![1, 6400000]⟩
abbrev S3x80000 : Shape := ⟨2, ![3, 80000]⟩
abbrev S1x80000 : Shape := ⟨2, ![1, 80000]⟩
abbrev S80000 : Shape := ⟨1, ![80000]⟩
abbrev S6400000x3 : Shape := ⟨2, ![6400000, 3]⟩

abbrev nBuf : Space → Nat
  | .hbm => 56
  | .vmem => 9
  | .smem => 0
  | _ => 0

abbrev bufTy : (tb : Table) → Fin (tcTables nBuf tb) → BufTy
  | .hbm, ⟨0, _⟩ => ⟨S100000x3, .f32⟩
  | .hbm, ⟨1, _⟩ => ⟨S6400000, .i32⟩
  | .hbm, ⟨2, _⟩ => ⟨S6400000, .i32⟩
  | .hbm, ⟨3, _⟩ => ⟨S1x3, .f32⟩
  | .hbm, ⟨4, _⟩ => ⟨S3x100000, .f32⟩
  | .hbm, ⟨5, _⟩ => ⟨S_, .i32⟩
  | .hbm, ⟨6, _⟩ => ⟨S6400000, .i32⟩
  | .hbm, ⟨7, _⟩ => ⟨S6400000, .i1⟩
  | .hbm, ⟨8, _⟩ => ⟨S_, .i32⟩
  | .hbm, ⟨9, _⟩ => ⟨S6400000, .i32⟩
  | .hbm, ⟨10, _⟩ => ⟨S6400000, .i32⟩
  | .hbm, ⟨11, _⟩ => ⟨S6400000, .i32⟩
  | .hbm, ⟨12, _⟩ => ⟨S6400000x1, .i32⟩
  | .hbm, ⟨13, _⟩ => ⟨S1, .i32⟩
  | .hbm, ⟨14, _⟩ => ⟨S_, .i32⟩
  | .hbm, ⟨15, _⟩ => ⟨S6400000x1, .i32⟩
  | .hbm, ⟨16, _⟩ => ⟨S6400000x1, .i1⟩
  | .hbm, ⟨17, _⟩ => ⟨S1x1, .i32⟩
  | .hbm, ⟨18, _⟩ => ⟨S6400000x1, .i32⟩
  | .hbm, ⟨19, _⟩ => ⟨S6400000x1, .i1⟩
  | .hbm, ⟨20, _⟩ => ⟨S6400000x1, .i1⟩
  | .hbm, ⟨21, _⟩ => ⟨S_, .i1⟩
  | .hbm, ⟨22, _⟩ => ⟨S6400000, .i1⟩
  | .hbm, ⟨23, _⟩ => ⟨S3x6400000, .f32⟩
  | .hbm, ⟨24, _⟩ => ⟨S3x6400000, .i1⟩
  | .hbm, ⟨25, _⟩ => ⟨S_, .f32⟩
  | .hbm, ⟨26, _⟩ => ⟨S3x6400000, .f32⟩
  | .hbm, ⟨27, _⟩ => ⟨S3x6400000, .f32⟩
  | .hbm, ⟨28, _⟩ => ⟨S_, .i32⟩
  | .hbm, ⟨29, _⟩ => ⟨S6400000, .i32⟩
  | .hbm, ⟨30, _⟩ => ⟨S6400000, .i1⟩
  | .hbm, ⟨31, _⟩ => ⟨S_, .i32⟩
  | .hbm, ⟨32, _⟩ => ⟨S6400000, .i32⟩
  | .hbm, ⟨33, _⟩ => ⟨S6400000, .i32⟩
  | .hbm, ⟨34, _⟩ => ⟨S6400000, .i32⟩
  | .hbm, ⟨35, _⟩ => ⟨S6400000x1, .i32⟩
  | .hbm, ⟨36, _⟩ => ⟨S1, .i32⟩
  | .hbm, ⟨37, _⟩ => ⟨S_, .i32⟩
  | .hbm, ⟨38, _⟩ => ⟨S6400000x1, .i32⟩
  | .hbm, ⟨39, _⟩ => ⟨S6400000x1, .i1⟩
  | .hbm, ⟨40, _⟩ => ⟨S1x1, .i32⟩
  | .hbm, ⟨41, _⟩ => ⟨S6400000x1, .i32⟩
  | .hbm, ⟨42, _⟩ => ⟨S6400000x1, .i1⟩
  | .hbm, ⟨43, _⟩ => ⟨S6400000x1, .i1⟩
  | .hbm, ⟨44, _⟩ => ⟨S_, .i1⟩
  | .hbm, ⟨45, _⟩ => ⟨S6400000, .i1⟩
  | .hbm, ⟨46, _⟩ => ⟨S3x6400000, .f32⟩
  | .hbm, ⟨47, _⟩ => ⟨S3x6400000, .i1⟩
  | .hbm, ⟨48, _⟩ => ⟨S_, .f32⟩
  | .hbm, ⟨49, _⟩ => ⟨S3x6400000, .f32⟩
  | .hbm, ⟨50, _⟩ => ⟨S3x6400000, .f32⟩
  | .hbm, ⟨51, _⟩ => ⟨S3x1, .f32⟩
  | .hbm, ⟨52, _⟩ => ⟨S1x6400000, .f32⟩
  | .hbm, ⟨53, _⟩ => ⟨S3x6400000, .f32⟩
  | .hbm, ⟨54, _⟩ => ⟨S6400000, .f32⟩
  | .hbm, ⟨55, _⟩ => ⟨S6400000x3, .f32⟩
  | .local _ .vmem, ⟨0, _⟩ => ⟨S3x80000, .f32⟩
  | .local _ .vmem, ⟨1, _⟩ => ⟨S3x80000, .f32⟩
  | .local _ .vmem, ⟨2, _⟩ => ⟨S3x80000, .f32⟩
  | .local _ .vmem, ⟨3, _⟩ => ⟨S3x80000, .f32⟩
  | .local _ .vmem, ⟨4, _⟩ => ⟨S3x1, .f32⟩
  | .local _ .vmem, ⟨5, _⟩ => ⟨S1x80000, .f32⟩
  | .local _ .vmem, ⟨6, _⟩ => ⟨S1x80000, .f32⟩
  | .local _ .vmem, ⟨7, _⟩ => ⟨S3x80000, .f32⟩
  | .local _ .vmem, ⟨8, _⟩ => ⟨S3x80000, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v2 : Ref sig .tc := ⟨.hbm, 50, rfl⟩
abbrev main_v3 : Ref sig .tc := ⟨.hbm, 51, rfl⟩
abbrev main_v4_0 : Ref sig .tc := ⟨.hbm, 52, rfl⟩
abbrev main_v4_1 : Ref sig .tc := ⟨.hbm, 53, rfl⟩
abbrev main_v5 : Ref sig .tc := ⟨.hbm, 54, rfl⟩
abbrev main_v6 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x80000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x80000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S100000x3_S3x100000_1_0 : S100000x3.Transposes [1, 0] S3x100000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S6400000x1 : S_.BroadcastsInDim S6400000x1 (![] : Fin 0 → Fin S6400000x1.rank)
  bcast_S1_S1x1_1 : S1.BroadcastsInDim S1x1 (![1] : Fin 1 → Fin S1x1.rank)
  bcast_S1x1_S6400000x1_0_1 : S1x1.BroadcastsInDim S6400000x1 (![0, 1] : Fin 2 → Fin S6400000x1.rank)
  reducesTo_S6400000x1_S6400000_d1 : S6400000x1.ReducesTo [1] S6400000
  h_S_ : 0 < S_.numel
  bcast_S6400000_S3x6400000_1 : S6400000.BroadcastsInDim S3x6400000 (![1] : Fin 1 → Fin S3x6400000.rank)
  bcast_S_S3x6400000 : S_.BroadcastsInDim S3x6400000 (![] : Fin 0 → Fin S3x6400000.rank)
  transposes_S1x3_S3x1_1_0 : S1x3.Transposes [1, 0] S3x1
  inb_S3x80000_S3x80000_0_0 : ∀ a, (![0, 0] : Fin 2 → Nat) a + S3x80000.size a ≤ S3x80000.size a
  h_S3x80000 : 0 < S3x80000.numel
  shapeCasts_S3x80000_S3x80000 : S3x80000.ShapeCasts S3x80000
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x80000 : S3x1.Broadcasts S3x80000
  reduces_S3x80000_S80000 : S3x80000.Reduces [0] S80000
  shapeCasts_S80000_S1x80000 : S80000.ShapeCasts S1x80000
  inb_S1x80000_S1x80000_0_0 : ∀ a, (![0, 0] : Fin 2 → Nat) a + S1x80000.size a ≤ S1x80000.size a
  h_S1x80000 : 0 < S1x80000.numel
  shapeCasts_S1x6400000_S6400000 : S1x6400000.ShapeCasts S6400000
  transposes_S3x6400000_S6400000x3_1_0 : S3x6400000.Transposes [1, 0] S6400000x3
  gather_S3x100000_S6400000x1_S3x6400000_0_1_n_n_1_1_31_wf : GatherDims.WF S3x100000 S6400000x1 S3x6400000 [0] [1] [] [1] [] 1 ![3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x80000.size a ≤ S3x6400000.size a
  hwx0_0 : ∀ i : grid0.Coords, EltTy.bits .f32 = 32 ∨ (Rect.block (s := S3x6400000) S3x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x80000.size a ≤ S3x6400000.size a
  hwx0_1 : ∀ i : grid0.Coords, EltTy.bits .f32 = 32 ∨ (Rect.block (s := S3x6400000) S3x80000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1.size a ≤ S3x1.size a
  hwx0_2 : ∀ i : grid0.Coords, EltTy.bits .f32 = 32 ∨ (Rect.block (s := S3x1) S3x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x80000.size a ≤ S1x6400000.size a
  hwx0_3 : ∀ i : grid0.Coords, EltTy.bits .f32 = 32 ∨ (Rect.block (s := S1x6400000) S1x80000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3x80000.size a ≤ S3x6400000.size a
  hwx0_4 : ∀ i : grid0.Coords, EltTy.bits .f32 = 32 ∨ (Rect.block (s := S3x6400000) S3x80000.size (cc0_transform_4 i) (hinb0_4 i)).WholeWords (EltTy.packing .f32)

variable [Facts₀]

def gather_S3x100000_S6400000x1_S3x6400000_0_1_n_n_1_1_31 : GatherDims S3x100000 S6400000x1 S3x6400000 where
  offsetDims := [0]
  collapsedSliceDims := [1]
  operandBatchingDims := []
  startIndicesBatchingDims := []
  startIndexMap := [1]
  indexVectorDim := 1
  sliceSizes := ![3, 1]
  wf := gather_S3x100000_S6400000x1_S3x6400000_0_1_n_n_1_1_31_wf

abbrev win0_0 : Pipeline.Window sig grid0 :=
  Pipeline.Window.ofSpec (Memref.whole main_v1) S3x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3x80000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S3x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x80000.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S3x80000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x3 : Shape := ⟨2, ![100000, 3]⟩
abbrev S6400000 : Shape := ⟨1, ![6400000]⟩
abbrev S1x3 : Shape := ⟨2, ![1, 3]⟩
abbrev S_ : Shape := ⟨0, ![]⟩
abbrev S6400000x1 : Shape := ⟨2, ![6400000, 1]⟩
abbrev S6400000x3 : Shape := ⟨2, ![6400000, 3]⟩

abbrev nBuf : Space → Nat
  | .hbm => 52
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S6400000, .i32⟩
  | .hbm, ⟨2, _⟩ => ⟨S6400000, .i32⟩
  | .hbm, ⟨3, _⟩ => ⟨S1x3, .f32⟩
  | .hbm, ⟨4, _⟩ => ⟨S_, .i32⟩
  | .hbm, ⟨5, _⟩ => ⟨S6400000, .i32⟩
  | .hbm, ⟨6, _⟩ => ⟨S6400000, .i1⟩
  | .hbm, ⟨7, _⟩ => ⟨S_, .i32⟩
  | .hbm, ⟨8, _⟩ => ⟨S6400000, .i32⟩
  | .hbm, ⟨9, _⟩ => ⟨S6400000, .i32⟩
  | .hbm, ⟨10, _⟩ => ⟨S6400000, .i32⟩
  | .hbm, ⟨11, _⟩ => ⟨S6400000x1, .i32⟩
  | .hbm, ⟨12, _⟩ => ⟨S6400000x3, .f32⟩
  | .hbm, ⟨13, _⟩ => ⟨S_, .i32⟩
  | .hbm, ⟨14, _⟩ => ⟨S6400000, .i32⟩
  | .hbm, ⟨15, _⟩ => ⟨S6400000, .i1⟩
  | .hbm, ⟨16, _⟩ => ⟨S_, .i32⟩
  | .hbm, ⟨17, _⟩ => ⟨S6400000, .i32⟩
  | .hbm, ⟨18, _⟩ => ⟨S6400000, .i32⟩
  | .hbm, ⟨19, _⟩ => ⟨S6400000, .i32⟩
  | .hbm, ⟨20, _⟩ => ⟨S6400000x1, .i32⟩
  | .hbm, ⟨21, _⟩ => ⟨S6400000x3, .f32⟩
  | .hbm, ⟨22, _⟩ => ⟨S6400000x3, .f32⟩
  | .hbm, ⟨23, _⟩ => ⟨S6400000x3, .f32⟩
  | .hbm, ⟨24, _⟩ => ⟨S6400000x3, .f32⟩
  | .hbm, ⟨25, _⟩ => ⟨S6400000x3, .f32⟩
  | .hbm, ⟨26, _⟩ => ⟨S6400000x3, .f32⟩
  | .hbm, ⟨27, _⟩ => ⟨S6400000x3, .f32⟩
  | .hbm, ⟨28, _⟩ => ⟨S6400000x3, .i1⟩
  | .hbm, ⟨29, _⟩ => ⟨S_, .f32⟩
  | .hbm, ⟨30, _⟩ => ⟨S_, .f32⟩
  | .hbm, ⟨31, _⟩ => ⟨S6400000x3, .f32⟩
  | .hbm, ⟨32, _⟩ => ⟨S6400000x3, .f32⟩
  | .hbm, ⟨33, _⟩ => ⟨S6400000x3, .f32⟩
  | .hbm, ⟨34, _⟩ => ⟨S6400000x3, .f32⟩
  | .hbm, ⟨35, _⟩ => ⟨S_, .f32⟩
  | .hbm, ⟨36, _⟩ => ⟨S6400000x3, .f32⟩
  | .hbm, ⟨37, _⟩ => ⟨S6400000x3, .f32⟩
  | .hbm, ⟨38, _⟩ => ⟨S_, .f32⟩
  | .hbm, ⟨39, _⟩ => ⟨S6400000x3, .f32⟩
  | .hbm, ⟨40, _⟩ => ⟨S6400000x3, .f32⟩
  | .hbm, ⟨41, _⟩ => ⟨S6400000x3, .f32⟩
  | .hbm, ⟨42, _⟩ => ⟨S6400000x3, .f32⟩
  | .hbm, ⟨43, _⟩ => ⟨S6400000x3, .f32⟩
  | .hbm, ⟨44, _⟩ => ⟨S_, .f32⟩
  | .hbm, ⟨45, _⟩ => ⟨S6400000x3, .f32⟩
  | .hbm, ⟨46, _⟩ => ⟨S6400000x3, .f32⟩
  | .hbm, ⟨47, _⟩ => ⟨S6400000x3, .f32⟩
  | .hbm, ⟨48, _⟩ => ⟨S_, .f32⟩
  | .hbm, ⟨49, _⟩ => ⟨S6400000, .f32⟩
  | .hbm, ⟨50, _⟩ => ⟨S6400000, .f32⟩
  | .hbm, ⟨51, _⟩ => ⟨S6400000x3, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_call1_v0 : Ref sig .tc := ⟨.hbm, 47, rfl⟩
abbrev main_call1_cst : Ref sig .tc := ⟨.hbm, 48, rfl⟩
abbrev main_call1_v1 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]

class Facts₀ : Prop where
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S1x3_S6400000x3_0_1 : S1x3.BroadcastsInDim S6400000x3 (![0, 1] : Fin 2 → Fin S6400000x3.rank)
  bcast_S_S6400000x3 : S_.BroadcastsInDim S6400000x3 (![] : Fin 0 → Fin S6400000x3.rank)
  reducesTo_S6400000x3_S6400000_d1 : S6400000x3.ReducesTo [1] S6400000
  h_S_ : 0 < S_.numel
  gather_S100000x3_S6400000x1_S6400000x3_1_0_n_n_0_1_13_wf : GatherDims.WF S100000x3 S6400000x1 S6400000x3 [1] [0] [] [0] [] 1 ![1, 3]

variable [Facts₀]

def gather_S100000x3_S6400000x1_S6400000x3_1_0_n_n_0_1_13 : GatherDims S100000x3 S6400000x1 S6400000x3 where
  offsetDims := [1]
  collapsedSliceDims := [0]
  operandBatchingDims := []
  startIndicesBatchingDims := []
  startIndexMap := [0]
  indexVectorDim := 1
  sliceSizes := ![1, 3]
  wf := gather_S100000x3_S6400000x1_S6400000x3_1_0_n_n_0_1_13_wf

class Facts : Prop extends Facts₀ where

variable [Facts]
-- ==== Proof.Spec.lean ====
/-
  The mathematics both programs compute, stated once over plain arrays.

  An edge `e` joins the rows `src e` and `dst e` of the coordinate table `xyz : [100000, 3]`. A negative
  row index wraps once (`i < 0 ↦ i + 100000`), and the table is then read at the wrapped index clamped into
  `[0, 99999]`. The displacement of edge `e` in component `k` is `δ = xyz[src e, k] - xyz[dst e, k]`.
  Two results: the length `sqrt (Σₖ (δₖ + ε₉)²)` of the shifted displacement, and per component the signed
  minimum-image value `min (L - |δ|) |δ| · (±1) · (δ + ε₈) / |δ + ε₈|`, where `L` is the cell length of that
  component and the sign `±1` records whether the minimum kept `|δ|`.
-/
import Idealize.ShloMosaic.PureOps.Ideal
import Idealize.ShloMosaic.Lib.ValueIdx
import Idealize.ShloMosaic.Lib.Affine

noncomputable section

namespace Cert.MinImage

open Idealize.ShloMosaic Idealize.ShloMosaic.ValueIdx

/-! ## A row index: wrapped once, then clamped -/

/-- A negative index counts from the end of the 100000 rows. -/
def wrapIdx (s : BitVec 32) : BitVec 32 :=
  Scalar.select (IntOp.cmpi .slt s 0#32) (IntOp.addi s 100000#32) s

theorem toInt_neg_rows : (4294867296#32 : BitVec 32).toInt = -100000 := by decide
theorem toInt_rows : (100000#32 : BitVec 32).toInt = 100000 := by decide
theorem toInt_last_row : (99999#32 : BitVec 32).toInt = 99999 := by decide
theorem toInt_zero : (0#32 : BitVec 32).toInt = 0 := by decide

/-- An index in `[-100000, 100000)` wraps into `[0, 99999]`: for `s < 0` the sum `s + 100000` does not leave the
    32-bit range, so it is the integer sum. -/
theorem wrapIdx_inRange (s : BitVec 32) (hlo : IntOp.cmpi .sge s 4294867296#32 = 1#1)
    (hhi : IntOp.cmpi .slt s 100000#32 = 1#1) :
    IntOp.cmpi .sge (wrapIdx s) 0#32 = 1#1 ∧ IntOp.cmpi .sle (wrapIdx s) 99999#32 = 1#1 := by
  rw [IntOp.cmpi_sge, toInt_neg_rows] at hlo
  rw [IntOp.cmpi_slt, toInt_rows] at hhi
  rw [IntOp.cmpi_sge, IntOp.cmpi_sle, toInt_zero, toInt_last_row]
  unfold wrapIdx Scalar.select
  by_cases h : IntOp.cmpi .slt s 0#32 = 1
  · rw [if_pos h]
    have h : IntOp.cmpi .slt s 0#32 = 1#1 := h
    rw [IntOp.cmpi_slt, toInt_zero] at h
    have e : (IntOp.addi s 100000#32).toInt = s.toInt + 100000 := by
      unfold IntOp.addi
      rw [BitVec.toInt_add, toInt_rows]
      exact Int.bmod_eq_of_le_mul_two (by omega) (by omega)
    rw [e]; omega
  · rw [if_neg h]
    have h' : ¬ s.toInt < 0 := by
      intro hc
      have : IntOp.cmpi .slt s 0#32 = 1#1 := (IntOp.cmpi_slt).2 (by rw [toInt_zero]; exact hc)
      exact h this
    omega

/-- Every index of `s` addresses one of the 100000 rows, from the front or from the end. -/
def InRange (s : IVec ⟨1, ![6400000]⟩ 32) : Prop :=
  ∀ e : Fin 6400000, IntOp.cmpi .sge (s (ix1 e)) 4294867296#32 = 1#1 ∧ IntOp.cmpi .slt (s (ix1 e)) 100000#32 = 1#1

/-- A start index read signed and clamped into the 100000 rows, as a gather reads it. -/
def clampRow (w : BitVec 32) : Fin 100000 := ⟨min w.toInt.toNat 99999, by omega⟩

/-- The row of the table an index reads: the wrapped index, clamped into the table. -/
def row (s : BitVec 32) : Fin 100000 := clampRow (wrapIdx s)

/-! ## The two results -/

/-- The shift under the sign, `f32 1e-8`. -/
abbrev ε₈ : Ideal .f32 := FloatOps.ofBits .f32 0x322BCC77#32
/-- The shift under the length, `f32 1e-9`. -/
abbrev ε₉ : Ideal .f32 := FloatOps.ofBits .f32 0x3089705F#32

/-- The signed minimum-image component of a displacement `δ` in a cell of length `L`. -/
def comp (δ L : Ideal .f32) : Ideal .f32 :=
  FloatOps.mulf (FloatOps.minimumf (FloatOps.subf L (FloatOps.absf δ)) (FloatOps.absf δ))
    (FloatOps.mulf
      (Scalar.select
        (FloatOps.cmpf .oeq (FloatOps.absf (FloatOps.minimumf (FloatOps.subf L (FloatOps.absf δ)) (FloatOps.absf δ))) (FloatOps.absf δ))
        (FloatOps.ofBits .f32 0x3F800000#32) (FloatOps.ofBits .f32 0xBF800000#32))
      (FloatOps.divf (FloatOps.addf δ ε₈) (FloatOps.absf (FloatOps.addf δ ε₈))))

/-- The square of a shifted displacement component. -/
def sq (δ : Ideal .f32) : Ideal .f32 := FloatOps.mulf (FloatOps.addf δ ε₉) (FloatOps.addf δ ε₉)

variable (X : FVec Ideal ⟨2, ![100000, 3]⟩ .f32) (s d : IVec ⟨1, ![6400000]⟩ 32) (L : FVec Ideal ⟨2, ![1, 3]⟩ .f32)

/-- The displacement of edge `e` in component `k`. -/
def disp (e : Fin 6400000) (k : Fin 3) : Ideal .f32 :=
  FloatOps.subf (X (ix2 (row (s (ix1 e))) k)) (X (ix2 (row (d (ix1 e))) k))

/-- The length of each edge's shifted displacement. -/
def lengths : FVec Ideal ⟨1, ![6400000]⟩ .f32 :=
  fun i => FloatOps.sqrt (∑ k : Fin 3, sq (disp X s d (i 0) k))

/-- The signed minimum-image displacement of each edge, component by component. -/
def images : FVec Ideal ⟨2, ![6400000, 3]⟩ .f32 :=
  fun i => comp (disp X s d (i 0) (i 1)) (L (ix2 ⟨0, Nat.one_pos⟩ (i 1)))

end Cert.MinImage

end
-- ==== Proof.RefValue.lean ====
/-
  The reference's two results are the specification's `lengths` and `images`.

  The reference gathers whole rows: `xyz[src]` is the table read at the wrapped index of each edge, clamped
  into the table, and component `k` of edge `e` is column `k` of that row. Everything after the two gathers
  is pointwise in `(e, k)`, except the length, which sums the three squares of an edge from a zero start.
-/
import proofs.«402380_j9216999817567_3_alg».proof.Proof.Gen.ReferenceIdeal.Read
import proofs.«402380_j9216999817567_3_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.MinImage
open Idealize.ShloMosaic Idealize.ShloMosaic.ValueIdx

/-- The row gather read at edge `e`, column `k`: the table at the start index of edge `e`, read signed and
    clamped into the 100000 rows, column `k`. -/
theorem gather_rows (x : FVec Ideal S100000x3 .f32) (idx : IVec S6400000x1 32) (e : Fin 6400000) (k : Fin 3) :
    Host.gather gather_S100000x3_S6400000x1_S6400000x3_1_0_n_n_0_1_13 x idx (ix2 e k)
      = x (ix2 (clampRow (idx (ix2 e ⟨0, Nat.one_pos⟩))) k) := by
  unfold Host.gather
  refine congrArg x (funext fun a => Fin.ext ?_)
  match a with
  | ⟨0, _⟩ =>
    show gather_S100000x3_S6400000x1_S6400000x3_1_0_n_n_0_1_13.start (ix2 e k) idx 0
      + gather_S100000x3_S6400000x1_S6400000x3_1_0_n_n_0_1_13.batchCoord (ix2 e k) 0
      + gather_S100000x3_S6400000x1_S6400000x3_1_0_n_n_0_1_13.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x3_S6400000x1_S6400000x3_1_0_n_n_0_1_13.startIndexMap from List.mem_singleton.mpr rfl)]
    have hsi : gather_S100000x3_S6400000x1_S6400000x3_1_0_n_n_0_1_13.siIdx (ix2 e k)
        ⟨List.idxOf (0 : Fin 2) gather_S100000x3_S6400000x1_S6400000x3_1_0_n_n_0_1_13.startIndexMap,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show gather_S100000x3_S6400000x1_S6400000x3_1_0_n_n_0_1_13.start (ix2 e k) idx 1
      + gather_S100000x3_S6400000x1_S6400000x3_1_0_n_n_0_1_13.batchCoord (ix2 e k) 1
      + gather_S100000x3_S6400000x1_S6400000x3_1_0_n_n_0_1_13.offCoord (ix2 e k) 1 = _
    rw [GatherDims.batchCoord_eq_zero _ _ _ List.not_mem_nil]
    unfold GatherDims.start
    rw [dif_neg (show (1 : Fin 2) ∉ gather_S100000x3_S6400000x1_S6400000x3_1_0_n_n_0_1_13.startIndexMap from by decide)]
    simp only [Nat.zero_add, Nat.add_zero]
    rfl

variable (X : FVec Ideal S100000x3 .f32) (s d : IVec S6400000 32) (L : FVec Ideal S1x3 .f32)

/-- The start index of edge `e` is its wrapped source index. -/
theorem start_src (e : Fin 6400000) : val_main_v5 (F := Ideal) s (ix2 e ⟨0, Nat.one_pos⟩) = wrapIdx (s (ix1 e)) := by
  have hi : idx_main_v5 (ix2 e ⟨0, Nat.one_pos⟩) = ix1 e :=
    funext fun a => Fin.ext (by match a with | ⟨0, _⟩ => rfl)
  rw [val_main_v5_apply, val_main_v4_apply, val_main_v1_apply, val_main_v3_apply, val_main_v0_apply, val_main_v2_apply,
    val_main_c_apply, val_main_c_0_apply, hi]
  rfl

/-- The start index of edge `e` for the second gather is its wrapped destination index. -/
theorem start_dst (e : Fin 6400000) : val_main_v12 (F := Ideal) d (ix2 e ⟨0, Nat.one_pos⟩) = wrapIdx (d (ix1 e)) := by
  have hi : idx_main_v12 (ix2 e ⟨0, Nat.one_pos⟩) = ix1 e :=
    funext fun a => Fin.ext (by match a with | ⟨0, _⟩ => rfl)
  rw [val_main_v12_apply, val_main_v11_apply, val_main_v8_apply, val_main_v10_apply, val_main_v7_apply, val_main_v9_apply,
    val_main_c_1_apply, val_main_c_2_apply, hi]
  rfl

/-- The difference of the two gathers is the displacement. -/
theorem diff_apply (e : Fin 6400000) (k : Fin 3) : val_main_v14 (F := Ideal) X s d (ix2 e k) = disp X s d e k := by
  rw [val_main_v14_apply]
  unfold val_main_v6 val_main_v13
  rw [gather_rows, gather_rows, start_src, start_dst]
  rfl

/-- The reference's second result is the signed minimum-image displacement. -/
theorem ref_images : val_main_v33 (F := Ideal) X s d L = images X s d L := by
  funext i
  obtain ⟨e, k, rfl⟩ : ∃ (e : Fin 6400000) (k : Fin 3), i = ix2 e k := ⟨i 0, i 1, eq_ix2 i⟩
  have hL : idx_main_v16 (ix2 e k) = ix2 (⟨0, Nat.one_pos⟩ : Fin 1) k :=
    funext fun a => Fin.ext (by match a with | ⟨0, _⟩ => rfl | ⟨1, _⟩ => rfl)
  simp only [val_main_v33_apply, val_main_v29_apply, val_main_v28_apply, val_main_v27_apply, val_main_v26_apply,
    val_main_v25_apply, val_main_cst_5_apply, val_main_v24_apply, val_main_v23_apply, val_main_cst_4_apply,
    val_main_v22_apply, val_main_v21_apply, val_main_call0_v0_apply, val_main_call0_v1_apply, val_main_cst_apply,
    val_main_cst_3_apply, val_main_v20_apply, val_main_v19_apply, val_main_v18_apply, val_main_v17_apply,
    val_main_v16_apply, val_main_v15_apply, diff_apply, hL]
  rfl

/-- The reference's first result is the length of the shifted displacement: the host sum starts from the zero word. -/
theorem ref_lengths : val_main_v32 (F := Ideal) X s d = lengths X s d := by
  funext i
  obtain ⟨e, rfl⟩ : ∃ e : Fin 6400000, i = ix1 e := ⟨i 0, eq_ix1 i⟩
  have hk : ∀ k : Fin 3, idx_main_call1_v1 (ix1 e) k = ix2 e k := fun k =>
    funext fun a => Fin.ext (by match a with | ⟨0, _⟩ => rfl | ⟨1, _⟩ => rfl)
  rw [val_main_v32_apply, val_main_call1_v1_apply, val_main_call1_cst_apply]
  simp only [hk, val_main_call1_v0_apply, val_main_v31_apply, val_main_v30_apply, val_main_cst_6_apply, diff_apply]
  show Ideal.sqrt (Ideal.ofBits .f32 0x00000000#32 + ∑ k : Fin 3, sq (disp X s d e k)) = Ideal.sqrt (∑ k : Fin 3, sq (disp X s d e k))
  rw [Ideal.ofBits_zero_f32, zero_add]

end Cert.ReferenceIdeal.RefValue

end
-- ==== Proof.KernelHost.lean ====
/-
  What the region finds in its three input arrays.

  Before the region the program transposes the table to `[3, 100000]` and takes its columns at the wrapped
  indices of `src` and of `dst`; a column whose wrapped index is outside `[0, 99999]` is replaced by a fill
  word. Where every index is in range no column is replaced, and entry `(k, e)` of a gathered array is the
  table at the row of edge `e`, column `k`. The cell lengths are transposed to a column `[3, 1]`.
-/
import proofs.«402380_j9216999817567_3_alg».proof.Proof.Gen.KernelIdeal.Frame
import proofs.«402380_j9216999817567_3_alg».proof.Proof.Spec
import Idealize.ShloMosaic.Lib.StableHlo.Run
import Idealize.ShloMosaic.Lib.ValueIdx
import Idealize.ShloMosaic.Lib.Pipeline.Value
import Idealize.ShloMosaic.Lib.ReduceAll

noncomputable section

namespace Cert.KernelIdeal.HostSide

open Cert.KernelIdeal Cert.KernelIdeal.Gen Cert.MinImage
open Idealize.ShloMosaic Idealize.ShloMosaic.TcCoe Idealize.ShloMosaic.ValueIdx Idealize.ShloMosaic.StableHlo Idealize.SL.Sem

variable {F : FTy → Type} [FloatOps F]

/-- The start indices of a take: each index wrapped once, as a column `[6400000, 1]`. -/
def starts (s : IVec S6400000 32) : IVec S6400000x1 32 :=
  broadcastInDim S6400000x1 ![0] bcast_S6400000_S6400000x1_0
    (select (cmpi .slt s (broadcastInDim S6400000 ![] bcast_S_S6400000 (constantI S_ 32 0#32)))
      (addi s (broadcastInDim S6400000 ![] bcast_S_S6400000 (constantI S_ 32 100000#32))) s)

/-- Which edges have their start index inside the table. -/
def inTable (s : IVec S6400000 32) : IVec S6400000 1 :=
  Host.reduce IntOp.andi
    (andi (cmpi .sge (starts s) (broadcastInDim S6400000x1 ![] bcast_S_S6400000x1 (constantI S_ 32 0#32)))
      (cmpi .sle (starts s) (broadcastInDim S6400000x1 ![0, 1] bcast_S1x1_S6400000x1_0_1
        (broadcastInDim S1x1 ![1] bcast_S1_S1x1_1 (constantI S1 32 99999#32)))))
    (constantI S_ 1 1#1) reducesTo_S6400000x1_S6400000_d1 h_S_

/-- The columns of `x` at the indices `s`, a fill word where the index is outside the table. -/
def takeCols (x : FVec F S3x100000 .f32) (s : IVec S6400000 32) : FVec F S3x6400000 .f32 :=
  select (broadcastInDim S3x6400000 ![1] bcast_S6400000_S3x6400000_1 (inTable s))
    (Host.gather gather_S3x100000_S6400000x1_S3x6400000_0_1_n_n_1_1_31 x (starts s))
    (broadcastInDim S3x6400000 ![] bcast_S_S3x6400000 (constant S_ .f32 0x7FC00000#32))

/-- Contents moved to a buffer's own type and back are the contents. -/
theorem ofBuf_toBuf {T : BufTy} (x : TRef sig T) (v : T.Contents (Elt F)) : x.ofBuf (x.toBuf v) = v :=
  eq_of_heq ((cast_heq _ _).trans (cast_heq _ _))

variable (m : (ℓ : Loc nD τ sig) → Buf (Elt F) ℓ)

/-- The table transposed. -/
abbrev tableT (c : Dev nD) : FVec F S3x100000 .f32 :=
  transpose S3x100000 [1, 0] (m ((c : Thread nD τ).loc main_arg0)) transposes_S100000x3_S3x100000_1_0

/-- Window 0's array: the transposed table's columns at `src`. -/
theorem V_src (c : Dev nD) :
    (V m c main_v1 : FVec F S3x6400000 .f32) = takeCols (tableT m c) (m ((c : Thread nD τ).loc main_arg1)) := by
  dsimp only [V, V0]
  simp only [hostOps0, hostOps0_1, hostOps0_2, hostOps0_3, List.flatten_cons, List.flatten_nil, List.append_nil,
    List.cons_append, List.nil_append]
  after_results_simp
  all_goals simp only [ofBuf_toBuf]
  all_goals refine eq_of_heq ((cast_heq _ _).trans (heq_of_eq ?_))
  all_goals (unfold takeCols inTable starts; rfl)

/-- Window 1's array: the transposed table's columns at `dst`. -/
theorem V_dst (c : Dev nD) :
    (V m c main_v2 : FVec F S3x6400000 .f32) = takeCols (tableT m c) (m ((c : Thread nD τ).loc main_arg2)) := by
  dsimp only [V, V0]
  simp only [hostOps0, hostOps0_1, hostOps0_2, hostOps0_3, List.flatten_cons, List.flatten_nil, List.append_nil,
    List.cons_append, List.nil_append]
  after_results_simp
  all_goals simp only [ofBuf_toBuf]
  all_goals refine eq_of_heq ((cast_heq _ _).trans (heq_of_eq ?_))
  all_goals (unfold takeCols inTable starts; rfl)

/-- Window 2's array: the cell lengths as a column. -/
theorem V_cell (c : Dev nD) :
    (V m c main_v3 : FVec F S3x1 .f32)
      = transpose S3x1 [1, 0] (m ((c : Thread nD τ).loc main_arg3)) transposes_S1x3_S3x1_1_0 := by
  dsimp only [V, V0]
  simp only [hostOps0, hostOps0_1, hostOps0_2, hostOps0_3, List.flatten_cons, List.flatten_nil, List.append_nil,
    List.cons_append, List.nil_append]
  after_results_simp <;> rfl

end Cert.KernelIdeal.HostSide

end
-- ==== Proof.KernelColumns.lean ====
/-
  The gathered column arrays, entry by entry, where every index is in range.

  The column take reads, at `(k, e)`, the transposed table at column `clamp (wrap (s e))` of row `k`, which is the
  table at row `clamp (wrap (s e))`, column `k`. Its fill mask at edge `e` tests `0 ≤ wrap (s e) ≤ 99999`, which
  holds for an index in `[-100000, 100000)`; so no column is replaced.
-/
import proofs.«402380_j9216999817567_3_alg».proof.Proof.KernelHost
import Idealize.ShloMosaic.Lib.StableHlo.Predicate

noncomputable section

namespace Cert.KernelIdeal.HostSide

open Cert.KernelIdeal Cert.KernelIdeal.Gen Cert.MinImage
open Idealize.ShloMosaic Idealize.ShloMosaic.TcCoe Idealize.ShloMosaic.ValueIdx Idealize.SL.Sem

/-- A left fold by `and` from 1 over words that are all 1 is 1. -/
theorem foldl_andi_of_all_one {ι : Type} (g : ι → BitVec 1) :
    ∀ l : List ι, (∀ n ∈ l, g n = 1#1) → l.foldl (fun r n => IntOp.andi r (g n)) 1#1 = 1#1
  | [], _ => rfl
  | a :: l, h => by
    rw [List.foldl_cons, h a List.mem_cons_self, show IntOp.andi 1#1 1#1 = 1#1 from by decide]
    exact foldl_andi_of_all_one g l fun n hn => h n (List.mem_cons_of_mem _ hn)

/-- The column gather read at `(k, e)`: row `k` of the operand at the start index of edge `e`, read signed and
    clamped into the 100000 columns. -/
theorem gather_cols (x : FVec Ideal S3x100000 .f32) (idx : IVec S6400000x1 32) (k : Fin 3) (e : Fin 6400000) :
    Host.gather gather_S3x100000_S6400000x1_S3x6400000_0_1_n_n_1_1_31 x idx (ix2 k e)
      = x (ix2 k (clampRow (idx (ix2 e ⟨0, Nat.one_pos⟩)))) := by
  unfold Host.gather
  refine congrArg x (funext fun a => Fin.ext ?_)
  match a with
  | ⟨0, _⟩ =>
    show gather_S3x100000_S6400000x1_S3x6400000_0_1_n_n_1_1_31.start (ix2 k e) idx 0
      + gather_S3x100000_S6400000x1_S3x6400000_0_1_n_n_1_1_31.batchCoord (ix2 k e) 0
      + gather_S3x100000_S6400000x1_S3x6400000_0_1_n_n_1_1_31.offCoord (ix2 k e) 0 = _
    rw [GatherDims.batchCoord_eq_zero _ _ _ List.not_mem_nil]
    unfold GatherDims.start
    rw [dif_neg (show (0 : Fin 2) ∉ gather_S3x100000_S6400000x1_S3x6400000_0_1_n_n_1_1_31.startIndexMap from by decide)]
    simp only [Nat.zero_add, Nat.add_zero]
    rfl
  | ⟨1, _⟩ =>
    show gather_S3x100000_S6400000x1_S3x6400000_0_1_n_n_1_1_31.start (ix2 k e) idx 1
      + gather_S3x100000_S6400000x1_S3x6400000_0_1_n_n_1_1_31.batchCoord (ix2 k e) 1
      + gather_S3x100000_S6400000x1_S3x6400000_0_1_n_n_1_1_31.offCoord (ix2 k e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S3x100000_S6400000x1_S3x6400000_0_1_n_n_1_1_31.startIndexMap from List.mem_singleton.mpr rfl)]
    have hsi : gather_S3x100000_S6400000x1_S3x6400000_0_1_n_n_1_1_31.siIdx (ix2 k e)
        ⟨List.idxOf (1 : Fin 2) gather_S3x100000_S6400000x1_S3x6400000_0_1_n_n_1_1_31.startIndexMap,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl

variable (s : IVec S6400000 32)

/-- The start index of edge `e` is its wrapped index. -/
theorem starts_apply (i : S6400000x1.Idx) : starts s i = wrapIdx (s (ix1 (i 0))) := by
  unfold starts
  rw [broadcastInDim_apply _ bcast_S6400000_S6400000x1_0 _ i (ix1 (i 0)) (fun a => by
    match a with
    | ⟨0, _⟩ => show (i 0).val = if (6400000 : Nat) = 1 then 0 else (i 0).val; rw [if_neg (by decide)])]
  rfl

/-- The test of one start index against the table's bounds. -/
theorem bounds_apply (i : S6400000x1.Idx) :
    andi (cmpi .sge (starts s) (broadcastInDim S6400000x1 ![] bcast_S_S6400000x1 (constantI S_ 32 0#32)))
      (cmpi .sle (starts s) (broadcastInDim S6400000x1 ![0, 1] bcast_S1x1_S6400000x1_0_1
        (broadcastInDim S1x1 ![1] bcast_S1_S1x1_1 (constantI S1 32 99999#32)))) i
      = IntOp.andi (IntOp.cmpi .sge (wrapIdx (s (ix1 (i 0)))) 0#32) (IntOp.cmpi .sle (wrapIdx (s (ix1 (i 0)))) 99999#32) := by
  show IntOp.andi (IntOp.cmpi .sge (starts s i) (broadcastInDim S6400000x1 ![] bcast_S_S6400000x1 (constantI S_ 32 0#32) i))
    (IntOp.cmpi .sle (starts s i) (broadcastInDim S6400000x1 ![0, 1] bcast_S1x1_S6400000x1_0_1
        (broadcastInDim S1x1 ![1] bcast_S1_S1x1_1 (constantI S1 32 99999#32)) i)) = _
  rw [starts_apply,
    broadcastInDim_apply _ bcast_S_S6400000x1 _ i ix0 (fun a => a.elim0),
    broadcastInDim_apply _ bcast_S1x1_S6400000x1_0_1 _ i (ix2 (0 : Fin 1) (0 : Fin 1)) (fun a => by
      match a with
      | ⟨0, _⟩ => show 0 = if (1 : Nat) = 1 then 0 else (i 0).val; rw [if_pos rfl]
      | ⟨1, _⟩ => show 0 = if (1 : Nat) = 1 then 0 else (i 1).val; rw [if_pos rfl]),
    broadcastInDim_apply _ bcast_S1_S1x1_1 _ (ix2 (0 : Fin 1) (0 : Fin 1)) (ix1 (0 : Fin 1)) (fun a => by
      match a with
      | ⟨0, _⟩ => show 0 = if (1 : Nat) = 1 then 0 else 0; rw [if_pos rfl])]
  rfl

/-- Where every index is in range, every edge's start index is inside the table. -/
theorem inTable_of_inRange (hs : InRange s) (j : S6400000.Idx) : inTable s j = 1#1 := by
  unfold inTable
  rw [Host.reduce_eq_foldl]
  refine foldl_andi_of_all_one _ _ fun i _ => ?_
  rw [bounds_apply]
  obtain ⟨h0, h1⟩ := wrapIdx_inRange (s (ix1 (i 0))) (hs (i 0)).1 (hs (i 0)).2
  rw [h0, h1]; decide

/-- Where every index is in range, the column take at `(k, e)` is the operand at row `k`, column `row (s e)`. -/
theorem takeCols_apply (x : FVec Ideal S3x100000 .f32) (hs : InRange s) (k : Fin 3) (e : Fin 6400000) :
    takeCols x s (ix2 k e) = x (ix2 k (row (s (ix1 e)))) := by
  unfold takeCols
  rw [select_apply,
    broadcastInDim_apply _ bcast_S6400000_S3x6400000_1 _ (ix2 k e) (ix1 e) (fun a => by
      match a with
      | ⟨0, _⟩ => show e.val = if (6400000 : Nat) = 1 then 0 else e.val; rw [if_neg (by decide)]),
    inTable_of_inRange s hs, select_one, gather_cols, starts_apply]
  rfl

/-- The transposed table at `(k, r)` is the table at `(r, k)`. -/
theorem tableT_apply {m : (ℓ : Loc nD τ sig) → Buf (Elt Ideal) ℓ} (c : Dev nD) (k : Fin 3) (r : Fin 100000) :
    tableT m c (ix2 k r) = (m ((c : Thread nD τ).loc main_arg0) : FVec Ideal S100000x3 .f32) (ix2 r k) :=
  transpose_apply _ _ transposes_S100000x3_S3x100000_1_0 (ix2 k r) (ix2 r k) (fun b => by
    match b with
    | ⟨0, _⟩ => rfl
    | ⟨1, _⟩ => rfl)

end Cert.KernelIdeal.HostSide

end
-- ==== Proof.LibKeepdims.lean ====
/-
  Layout and reduction lemmas for rank-2 arrays read by coordinates, in the style of the library's
  `Lib/ValueLayout.lean`: the keepdims COLUMN forms (a vector cast to one column, a column broadcast
  along the rows), and a one-axis reduction of an `[a, b]` array — a kernel's `vector.multi_reduction`
  by `add` or `maximumf` over either axis, the host's one-operand `stablehlo.reduce` by `maximum`
  over the second axis — as a `Fin`-indexed sum or fold of the entries `(i, k)` / `(k, j)`.
  Program-independent: only shapes `[a]`, `[a, 1]`, `[a, b]` with the extents as variables.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

variable {φ : FTy}

/-- A float `multi_reduction <add>` of an `[a, b]` array over its second axis, at row `i`: the row's sum. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = ∑ k : Fin b, src (ix2 i k)
  refine Finset.sum_congr rfl fun k _ => congrArg src (funext fun ax => Fin.ext ?_)
  match ax with
  | ⟨0, _⟩ => rfl
  | ⟨1, _⟩ => rfl

/-- A float `multi_reduction <add>` of an `[a, b]` array over its first axis, at column `j`: the column's sum. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  show ∑ k : Fin a, src (h.lift (ix1 j) k) = ∑ k : Fin a, src (ix2 k j)
  refine Finset.sum_congr rfl fun k _ => congrArg src (funext fun ax => Fin.ext ?_)
  match ax with
  | ⟨0, _⟩ => rfl
  | ⟨1, _⟩ => rfl

/-- A float `multi_reduction <maximumf>` of an `[a, b]` array over its second axis, at row `i`: the fold of
    `max` from the accumulator's value over the row. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  refine congrArg (fun f => (Finset.univ : Finset (Fin b)).fold max (Ideal.ofBits φ acc) f)
    (funext fun k => congrArg src (funext fun ax => Fin.ext ?_))
  match ax with
  | ⟨0, _⟩ => rfl
  | ⟨1, _⟩ => rfl

/-- The host's one-operand `stablehlo.reduce` by `maximum` of an `[a, b]` array over its second axis, at row
    `i`, read at the extended reals: the fold of `max` from the initial value over the row. -/
theorem hostReduce_max_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩) (hu : 0 < u.numel) (i : Fin a) :
    Host.reduce (FloatOps.maximumf (F := Ideal) (φ := φ)) x init h' hu (ix1 i)
      = (Finset.univ : Finset (Fin b)).fold max (init (Shape.Idx.first hu)) (fun k => x (ix2 i k)) := by
  refine (Host.reduce_eq_fold_single (FloatOps.maximumf (F := Ideal) (φ := φ)) x init h' h hu (ix1 i)).trans ?_
  show (Finset.univ : Finset (Fin b)).fold max (init (Shape.Idx.first hu)) (fun k => x (h.lift (ix1 i) k)) = _
  refine congrArg (fun f => (Finset.univ : Finset (Fin b)).fold max (init (Shape.Idx.first hu)) f)
    (funext fun k => congrArg x (funext fun ax => Fin.ext ?_))
  match ax with
  | ⟨0, _⟩ => rfl
  | ⟨1, _⟩ => rfl

/-! ### The same at `f32` with the accumulator's word written out

At `f32` the neutral word of `add` is `0x00000000` and that of `maximumf` is `0xFF800000` (`-∞`): with the
accumulator written as that word, the evidence that it is the kind's neutral word is the word's equation with itself. -/

theorem add_rows_f32 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) :=
  multiReduction_add_rows src _ h hφ hacc i

theorem add_cols_f32 {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ k : Fin a, src (ix2 k j) :=
  multiReduction_add_cols src _ h hφ hacc j

theorem max_rows_f32 {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) :=
  multiReduction_max_rows src _ h hφ hacc i

/-- The one entry of a `[1, 1]` array, extracted at `[0, 0]`. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun ax => Fin.ext ?_)
  match ax with
  | ⟨0, _⟩ => rfl
  | ⟨1, _⟩ => rfl

end Cert.Keepdims

end
-- ==== Proof.KernelBody.lean ====
/-
  The kernel body's arithmetic, read at an entry.

  On a block of 80000 edges the body holds the two gathered column blocks `x0`, `x1 : [3, 80000]` and the cell
  column `x2 : [3, 1]`. Its displacement block is `x0 - x1`; entry `(k, j)` of the stored image block is the
  signed minimum-image component of that displacement in the cell length `x2 (k, 0)`, and entry `(0, j)` of the
  stored length block is the root of the sum over the three components of the shifted displacement's squares.
-/
import proofs.«402380_j9216999817567_3_alg».proof.Proof.Gen.KernelIdeal.Skeleton
import proofs.«402380_j9216999817567_3_alg».proof.Proof.Spec
import proofs.«402380_j9216999817567_3_alg».proof.Proof.LibKeepdims
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Cert.MinImage Cert.Keepdims
open Idealize.ShloMosaic Idealize.ShloMosaic.ValueIdx

variable (x0 x1 : Vec Ideal S3x80000 .f32) (x2 : Vec Ideal S3x1 .f32)

/-- The displacement block: the two same-shape casts are the identity. -/
theorem pay_disp : k0_pay1 x0 x1 = subf x0 x1 := by
  unfold k0_pay1
  dsimp only
  rw [shapeCast_self, shapeCast_self]

/-- Entry `(k, j)` of the image block. -/
theorem pay_image (k : Fin 3) (j : Fin 80000) :
    k0_pay2 x0 x1 x2 (ix2 k j) = comp (FloatOps.subf (x0 (ix2 k j)) (x1 (ix2 k j))) (x2 (ix2 k (0 : Fin 1))) := by
  have hb : broadcastTo S3x80000 x2 broadcasts_S3x1_S3x80000 (ix2 k j) = x2 (ix2 k (0 : Fin 1)) :=
    broadcastTo_a1_ab_apply x2 broadcasts_S3x1_S3x80000 k j
  unfold k0_pay2
  rw [pay_disp, shapeCast_self, shapeCast_self]
  refine Eq.trans (b := comp (FloatOps.subf (x0 (ix2 k j)) (x1 (ix2 k j)))
    (broadcastTo S3x80000 x2 broadcasts_S3x1_S3x80000 (ix2 k j))) rfl ?_
  rw [hb]

/-- Entry `(0, j)` of the length block. -/
theorem pay_length (u : Fin 1) (j : Fin 80000) :
    k0_pay3 x0 x1 (ix2 u j)
      = FloatOps.sqrt (∑ k : Fin 3, sq (FloatOps.subf (x0 (ix2 k j)) (x1 (ix2 k j)))) := by
  unfold k0_pay3
  rw [pay_disp]
  show FloatOps.sqrt (shapeCast S1x80000 (multiReduction .add [0] S80000 _ 0x00000000#32 reduces_S3x80000_S80000 (.inl rfl) rfl)
    shapeCasts_S80000_S1x80000 (ix2 u j)) = _
  rw [shapeCast_addUnit_apply]
  refine congrArg FloatOps.sqrt ?_
  have hj : (fun a : Fin 1 => (ix2 u j : S1x80000.Idx) a.succ) = ix1 j :=
    funext fun a => Fin.ext (by match a with | ⟨0, _⟩ => rfl)
  rw [hj]
  exact add_cols_f32 _ reduces_S3x80000_S80000 (.inl rfl) rfl j

end Cert.KernelIdeal.Body

end
-- ==== Proof.KernelBlocks.lean ====
/-
  From blocks to arrays: what the two output arrays hold after the region.

  Grid point `t` works on edges `80000 t … 80000 t + 79999`: its two input blocks are those columns of the gathered
  arrays, its cell block the whole cell column, and it writes back those columns of the two outputs. Every entry it
  writes is one whole-array function of the inputs read at the same column, and the 80 blocks tile the outputs.
-/
import proofs.«402380_j9216999817567_3_alg».proof.Proof.Gen.KernelIdeal.Frame
import proofs.«402380_j9216999817567_3_alg».proof.Proof.KernelBody
import Idealize.ShloMosaic.Lib.ValueIdx
import Idealize.ShloMosaic.Lib.Pipeline.Value

set_option maxRecDepth 16384

noncomputable section

namespace Cert.KernelIdeal.Blocks

open Cert.KernelIdeal Cert.KernelIdeal.Gen Cert.KernelIdeal.Body Cert.MinImage
open Idealize.ShloMosaic Idealize.ShloMosaic.TcCoe Idealize.ShloMosaic.ValueIdx Idealize.SL.Sem
open Idealize.ShloMosaic.Pipeline (Dat)

/-- The image array as a function of the three input arrays: entry `(k, e)` from the inputs at `(k, e)` and the
    cell length of component `k`. -/
def imagesT (a1 a2 : FVec Ideal S3x6400000 .f32) (a3 : FVec Ideal S3x1 .f32) (i : S3x6400000.Idx) : Ideal .f32 :=
  comp (FloatOps.subf (a1 i) (a2 i)) (a3 (ix2 (i 0) (0 : Fin 1)))

/-- The length array as a function of the two gathered arrays: entry `(0, e)` from column `e` of both. -/
def lengthsT (a1 a2 : FVec Ideal S3x6400000 .f32) (i : S1x6400000.Idx) : Ideal .f32 :=
  FloatOps.sqrt (∑ k : Fin 3, sq (FloatOps.subf (a1 (ix2 k (i 1))) (a2 (ix2 k (i 1)))))

variable (m : (ℓ : Loc nD τ sig) → Buf (Elt Ideal) ℓ)

theorem zero_offsets : (![0, 0] : Fin 2 → Nat) = fun _ => 0 := funext fun a => by fin_cases a <;> rfl

/-- The body's image entry at any block index. -/
theorem pay_image_at (x0 x1 : Vec Ideal S3x80000 .f32) (x2 : Vec Ideal S3x1 .f32) (y : S3x80000.Idx) :
    k0_pay2 x0 x1 x2 y = comp (FloatOps.subf (x0 y) (x1 y)) (x2 (ix2 (y 0) (0 : Fin 1))) := by
  obtain ⟨p, q, rfl⟩ : ∃ (p : Fin 3) (q : Fin 80000), y = ix2 p q := ⟨y 0, y 1, eq_ix2 y⟩
  exact pay_image x0 x1 x2 p q

/-- The body's length entry at any block index. -/
theorem pay_length_at (x0 x1 : Vec Ideal S3x80000 .f32) (y : S1x80000.Idx) :
    k0_pay3 x0 x1 y = FloatOps.sqrt (∑ k : Fin 3, sq (FloatOps.subf (x0 (ix2 k (y 1))) (x1 (ix2 k (y 1))))) := by
  obtain ⟨p, q, rfl⟩ : ∃ (p : Fin 1) (q : Fin 80000), y = ix2 p q := ⟨y 0, y 1, eq_ix2 y⟩
  exact pay_length x0 x1 p q

/-- The printed index maps over the 80 points: the gathered arrays and both outputs move along the edge axis with
    the point, the cell column stays. -/
theorem index_maps : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-! ## The image output (window 4) -/

set_option maxHeartbeats 1000000 in
/-- What point `t` writes back to the image output is block `t` of `imagesT`. The three input arrays enter only
    through their entries at the block's columns. -/
theorem flushed_images (c : Dev nD) (t : Fin cfg0.N) :
    (dats m 0 c).flushed 4 t
      = ((cfg0.win 4).blk t).view.read (Elt Ideal)
          (imagesT (V m c (Pipeline.arrRef spec0 0)) (V m c (Pipeline.arrRef spec0 1)) (V m c (Pipeline.arrRef spec0 2))) := by
  show (cfg0.win 4).cut (grid0.coords t) ((dats m 0 c).after 4 t) = _
  rw [after0_4]
  unfold out0_4
  rw [View.canon_unit_zero zero_offsets]
  simp only [View.ld_unit_zero (S := S3x80000) zero_offsets, View.ld_unit_zero (S := S3x1) zero_offsets]
  obtain ⟨a00, a01, a10, a11, a20, a21, -, -, a40, a41⟩ := index_maps t
  funext j
  show k0_pay2 (iblk m c 0 t) (iblk m c 1 t) (iblk m c 2 t) ((win0 4).xinj (grid0.coords t) j) = _
  refine (pay_image_at (iblk m c 0 t) (iblk m c 1 t) (iblk m c 2 t) ((win0 4).xinj (grid0.coords t) j)).trans ?_
  unfold iblk
  generalize V m c (Pipeline.arrRef spec0 0) = A1
  generalize V m c (Pipeline.arrRef spec0 1) = A2
  generalize V m c (Pipeline.arrRef spec0 2) = A3
  have r0 : View.read (Elt Ideal) ((cfg0.win 0).blk t).view A1 ((win0 4).xinj (grid0.coords t) j)
      = A1 (((cfg0.win 0).blk t).view.emb ((win0 4).xinj (grid0.coords t) j)) := eq_of_heq (cast_heq _ _)
  have r1 : View.read (Elt Ideal) ((cfg0.win 1).blk t).view A2 ((win0 4).xinj (grid0.coords t) j)
      = A2 (((cfg0.win 1).blk t).view.emb ((win0 4).xinj (grid0.coords t) j)) := eq_of_heq (cast_heq _ _)
  have r2 : View.read (Elt Ideal) ((cfg0.win 2).blk t).view A3 (ix2 ((win0 4).xinj (grid0.coords t) j 0) (0 : Fin 1))
      = A3 (((cfg0.win 2).blk t).view.emb (ix2 ((win0 4).xinj (grid0.coords t) j 0) (0 : Fin 1))) := eq_of_heq (cast_heq _ _)
  have r4 : View.read (Elt Ideal) ((View.whole main_v4_1).slice ((win0 4).rect t)) (imagesT A1 A2 A3) j
      = imagesT A1 A2 A3 (((View.whole main_v4_1).slice ((win0 4).rect t)).emb j) := eq_of_heq (cast_heq _ _)
  rw [r0, r1, r2, r4]
  have h0 : ((cfg0.win 0).blk t).view.emb ((win0 4).xinj (grid0.coords t) j)
      = ((View.whole main_v4_1).slice ((win0 4).rect t)).emb j := by
    funext a; apply Fin.ext
    match a with
    | ⟨0, _⟩ => show win0_0.index t (0 : Fin 2) * 3 + 1 * (j 0).val = win0_4.index t (0 : Fin 2) * 3 + 1 * (j 0).val; omega
    | ⟨1, _⟩ => show win0_0.index t (1 : Fin 2) * 80000 + 1 * (j 1).val = win0_4.index t (1 : Fin 2) * 80000 + 1 * (j 1).val; omega
  have h1 : ((cfg0.win 1).blk t).view.emb ((win0 4).xinj (grid0.coords t) j)
      = ((View.whole main_v4_1).slice ((win0 4).rect t)).emb j := by
    funext a; apply Fin.ext
    match a with
    | ⟨0, _⟩ => show win0_1.index t (0 : Fin 2) * 3 + 1 * (j 0).val = win0_4.index t (0 : Fin 2) * 3 + 1 * (j 0).val; omega
    | ⟨1, _⟩ => show win0_1.index t (1 : Fin 2) * 80000 + 1 * (j 1).val = win0_4.index t (1 : Fin 2) * 80000 + 1 * (j 1).val; omega
  have h2 : ((cfg0.win 2).blk t).view.emb (ix2 ((win0 4).xinj (grid0.coords t) j 0) (0 : Fin 1))
      = (ix2 ((((View.whole main_v4_1).slice ((win0 4).rect t)).emb j) 0) (0 : Fin 1) : S3x1.Idx) := by
    funext a; apply Fin.ext
    match a with
    | ⟨0, _⟩ => show win0_2.index t (0 : Fin 2) * 3 + 1 * (j 0).val = win0_4.index t (0 : Fin 2) * 3 + 1 * (j 0).val; omega
    | ⟨1, _⟩ => show win0_2.index t (1 : Fin 2) * 1 + 1 * 0 = 0; omega
  rw [h0, h1, h2]
  rfl

/-- An index of the image output is in point `t`'s block iff each coordinate is in the block's range. -/
theorem mem_block_images (t : Fin cfg0.N) (i : S3x6400000.Idx) :
    i ∈ ((cfg0.win 4).blk t).view.set ↔ ∀ a : Fin 2, win0_4.index t a * S3x80000.size a ≤ (i a).val ∧ (i a).val < win0_4.index t a * S3x80000.size a + S3x80000.size a := by
  show i ∈ ((View.whole main_v4_1).slice (win0_4.rect t)).set ↔ _
  rw [View.set_slice_whole, Rect.mem_set_unit]
  exact Iff.rfl

/-- Every index of the image output is in the block of the point that holds its edge. -/
theorem cover_images (i : S3x6400000.Idx) :
    ∃ t : Fin cfg0.N, (cfg0.win 4).flush t = true ∧ i ∈ ((cfg0.win 4).blk t).view.set := by
  have hi0 : (i 0).val < 3 := (i 0).isLt
  have hi1 : (i 1).val < 6400000 := (i 1).isLt
  have hN : cfg0.N = 80 := N_0
  let t : Fin cfg0.N := ⟨(i 1).val / 80000, by rw [hN]; omega⟩
  obtain ⟨-, -, -, -, -, -, -, -, a40, a41⟩ := index_maps t
  have ht : t.val = (i 1).val / 80000 := rfl
  refine ⟨t, flush0_4 t, ?_⟩
  rw [mem_block_images]
  intro a
  match a with
  | ⟨0, _⟩ => show win0_4.index t (0 : Fin 2) * 3 ≤ (i 0).val ∧ (i 0).val < win0_4.index t (0 : Fin 2) * 3 + 3; omega
  | ⟨1, _⟩ => show win0_4.index t (1 : Fin 2) * 80000 ≤ (i 1).val ∧ (i 1).val < win0_4.index t (1 : Fin 2) * 80000 + 80000; omega

/-- The image output after the region. -/
theorem final_images (c : Dev nD) :
    (dats m 0 c).arrAt 4 cfg0.N = imagesT (V m c main_v1) (V m c main_v2) (V m c main_v3) :=
  (dats m 0 c).arrAt_eq_of_cover 4
    (imagesT (V m c (Pipeline.arrRef spec0 0)) (V m c (Pipeline.arrRef spec0 1)) (V m c (Pipeline.arrRef spec0 2)))
    (fun t _ => flushed_images m c t) cover_images

/-! ## The length output (window 3) -/

set_option maxHeartbeats 1000000 in
/-- What point `t` writes back to the length output is block `t` of `lengthsT`. -/
theorem flushed_lengths (c : Dev nD) (t : Fin cfg0.N) :
    (dats m 0 c).flushed 3 t
      = ((cfg0.win 3).blk t).view.read (Elt Ideal)
          (lengthsT (V m c (Pipeline.arrRef spec0 0)) (V m c (Pipeline.arrRef spec0 1))) := by
  show (cfg0.win 3).cut (grid0.coords t) ((dats m 0 c).after 3 t) = _
  rw [after0_3]
  unfold out0_3
  rw [View.canon_unit_zero zero_offsets]
  simp only [View.ld_unit_zero (S := S3x80000) zero_offsets]
  obtain ⟨a00, a01, a10, a11, -, -, a30, a31, -, -⟩ := index_maps t
  funext j
  show k0_pay3 (iblk m c 0 t) (iblk m c 1 t) ((win0 3).xinj (grid0.coords t) j) = _
  refine (pay_length_at (iblk m c 0 t) (iblk m c 1 t) ((win0 3).xinj (grid0.coords t) j)).trans ?_
  unfold iblk
  generalize V m c (Pipeline.arrRef spec0 0) = A1
  generalize V m c (Pipeline.arrRef spec0 1) = A2
  have r3 : View.read (Elt Ideal) ((View.whole main_v4_0).slice ((win0 3).rect t)) (lengthsT A1 A2) j
      = lengthsT A1 A2 (((View.whole main_v4_0).slice ((win0 3).rect t)).emb j) := eq_of_heq (cast_heq _ _)
  rw [r3]
  unfold lengthsT
  refine congrArg FloatOps.sqrt (Finset.sum_congr rfl fun k _ => ?_)
  have r0 : View.read (Elt Ideal) ((cfg0.win 0).blk t).view A1 (ix2 k ((win0 3).xinj (grid0.coords t) j 1))
      = A1 (((cfg0.win 0).blk t).view.emb (ix2 k ((win0 3).xinj (grid0.coords t) j 1))) := eq_of_heq (cast_heq _ _)
  have r1 : View.read (Elt Ideal) ((cfg0.win 1).blk t).view A2 (ix2 k ((win0 3).xinj (grid0.coords t) j 1))
      = A2 (((cfg0.win 1).blk t).view.emb (ix2 k ((win0 3).xinj (grid0.coords t) j 1))) := eq_of_heq (cast_heq _ _)
  rw [r0, r1]
  have h0 : ((cfg0.win 0).blk t).view.emb (ix2 k ((win0 3).xinj (grid0.coords t) j 1))
      = (ix2 k ((((View.whole main_v4_0).slice ((win0 3).rect t)).emb j) 1) : S3x6400000.Idx) := by
    funext a; apply Fin.ext
    match a with
    | ⟨0, _⟩ => show win0_0.index t (0 : Fin 2) * 3 + 1 * k.val = k.val; omega
    | ⟨1, _⟩ => show win0_0.index t (1 : Fin 2) * 80000 + 1 * (j 1).val = win0_3.index t (1 : Fin 2) * 80000 + 1 * (j 1).val; omega
  have h1 : ((cfg0.win 1).blk t).view.emb (ix2 k ((win0 3).xinj (grid0.coords t) j 1))
      = (ix2 k ((((View.whole main_v4_0).slice ((win0 3).rect t)).emb j) 1) : S3x6400000.Idx) := by
    funext a; apply Fin.ext
    match a with
    | ⟨0, _⟩ => show win0_1.index t (0 : Fin 2) * 3 + 1 * k.val = k.val; omega
    | ⟨1, _⟩ => show win0_1.index t (1 : Fin 2) * 80000 + 1 * (j 1).val = win0_3.index t (1 : Fin 2) * 80000 + 1 * (j 1).val; omega
  rw [h0, h1]

/-- An index of the length output is in point `t`'s block iff each coordinate is in the block's range. -/
theorem mem_block_lengths (t : Fin cfg0.N) (i : S1x6400000.Idx) :
    i ∈ ((cfg0.win 3).blk t).view.set ↔ ∀ a : Fin 2, win0_3.index t a * S1x80000.size a ≤ (i a).val ∧ (i a).val < win0_3.index t a * S1x80000.size a + S1x80000.size a := by
  show i ∈ ((View.whole main_v4_0).slice (win0_3.rect t)).set ↔ _
  rw [View.set_slice_whole, Rect.mem_set_unit]
  exact Iff.rfl

/-- Every index of the length output is in the block of the point that holds its edge. -/
theorem cover_lengths (i : S1x6400000.Idx) :
    ∃ t : Fin cfg0.N, (cfg0.win 3).flush t = true ∧ i ∈ ((cfg0.win 3).blk t).view.set := by
  have hi0 : (i 0).val < 1 := (i 0).isLt
  have hi1 : (i 1).val < 6400000 := (i 1).isLt
  have hN : cfg0.N = 80 := N_0
  let t : Fin cfg0.N := ⟨(i 1).val / 80000, by rw [hN]; omega⟩
  obtain ⟨-, -, -, -, -, -, a30, a31, -, -⟩ := index_maps t
  have ht : t.val = (i 1).val / 80000 := rfl
  refine ⟨t, flush0_3 t, ?_⟩
  rw [mem_block_lengths]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 80000 ≤ (i 1).val ∧ (i 1).val < win0_3.index t (1 : Fin 2) * 80000 + 80000; omega

/-- The length output after the region. -/
theorem final_lengths (c : Dev nD) :
    (dats m 0 c).arrAt 3 cfg0.N = lengthsT (V m c main_v1) (V m c main_v2) :=
  (dats m 0 c).arrAt_eq_of_cover 3
    (lengthsT (V m c (Pipeline.arrRef spec0 0)) (V m c (Pipeline.arrRef spec0 1)))
    (fun t _ => flushed_lengths m c t) cover_lengths

end Cert.KernelIdeal.Blocks

end
-- ==== Proof.KernelRun.lean ====
/-
  The kernel program's run, with both results named.

  After the region the program reshapes the length output `[1, 6400000]` to `[6400000]` and transposes the image
  output `[3, 6400000]` to `[6400000, 3]`. Entry `e` of the first result is entry `(0, e)` of the length output, and
  entry `(e, k)` of the second is entry `(k, e)` of the image output. Where every index is in range the gathered
  columns are the table's rows, so the two results are the specification's `lengths` and `images`.
-/
import proofs.«402380_j9216999817567_3_alg».proof.Proof.KernelColumns
import proofs.«402380_j9216999817567_3_alg».proof.Proof.KernelBlocks
import Idealize.ShloMosaic.Lib.StableHlo.Run

set_option maxRecDepth 16384

noncomputable section

namespace Cert.KernelIdeal.Result

open Cert.KernelIdeal Cert.KernelIdeal.Gen Cert.KernelIdeal.HostSide Cert.KernelIdeal.Blocks Cert.MinImage
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg)

/-- The argument arrays, by name. -/
abbrev xyz (c : Dev nD) : FVec Ideal S100000x3 .f32 := m ((c : Thread nD τ).loc main_arg0)
abbrev src (c : Dev nD) : IVec S6400000 32 := m ((c : Thread nD τ).loc main_arg1)
abbrev dst (c : Dev nD) : IVec S6400000 32 := m ((c : Thread nD τ).loc main_arg2)
abbrev cell (c : Dev nD) : FVec Ideal S1x3 .f32 := m ((c : Thread nD τ).loc main_arg3)

/-! ## The region's outputs as the lines after it find them -/

theorem out_lengths (c : Dev nD) :
    Pipeline.withArrays spec0 c (V0 m c) (fun w => (dats m 0 c).arrAt w cfg0.N) (Proc.devRef .tc main_v4_0)
      = lengthsT (V m c main_v1) (V m c main_v2) :=
  (Pipeline.withArrays_arr spec0 launch0.win.arr_inj c _ _ 3).trans (final_lengths m c)

theorem out_images (c : Dev nD) :
    Pipeline.withArrays spec0 c (V0 m c) (fun w => (dats m 0 c).arrAt w cfg0.N) (Proc.devRef .tc main_v4_1)
      = imagesT (V m c main_v1) (V m c main_v2) (V m c main_v3) :=
  (Pipeline.withArrays_arr spec0 launch0.win.arr_inj c _ _ 4).trans (final_images m c)

/-! ## The gathered arrays where every index is in range -/

variable {m}

theorem gathered_src (c : Dev nD) (hs : InRange (src m c)) (k : Fin 3) (e : Fin 6400000) :
    (V m c main_v1 : FVec Ideal S3x6400000 .f32) (ix2 k e) = xyz m c (ix2 (row (src m c (ix1 e))) k) := by
  rw [V_src, takeCols_apply _ _ hs, tableT_apply]

theorem gathered_dst (c : Dev nD) (hd : InRange (dst m c)) (k : Fin 3) (e : Fin 6400000) :
    (V m c main_v2 : FVec Ideal S3x6400000 .f32) (ix2 k e) = xyz m c (ix2 (row (dst m c (ix1 e))) k) := by
  rw [V_dst, takeCols_apply _ _ hd, tableT_apply]

theorem cell_column (c : Dev nD) (k : Fin 3) :
    (V m c main_v3 : FVec Ideal S3x1 .f32) (ix2 k (0 : Fin 1)) = cell m c (ix2 (⟨0, Nat.one_pos⟩ : Fin 1) k) := by
  rw [V_cell]
  exact transpose_apply _ _ transposes_S1x3_S3x1_1_0 (ix2 k (0 : Fin 1)) (ix2 (⟨0, Nat.one_pos⟩ : Fin 1) k) (fun b => by
    match b with
    | ⟨0, _⟩ => rfl
    | ⟨1, _⟩ => rfl)

/-! ## The two results -/

/-- The first result: the reshaped length output is `lengths`. -/
theorem result_lengths (c : Dev nD) (hs : InRange (src m c)) (hd : InRange (dst m c)) :
    Pipeline.afterTail₀ cfgs (dats m) 0 (V0 m) [hostOps1] c main_v5 = lengths (xyz m c) (src m c) (dst m c) := by
  unfold Pipeline.afterTail₀
  show StableHlo.after hostOps1 _ (Proc.devRef .tc main_v5) = _
  after_results
  rw [out_lengths]
  funext i
  obtain ⟨e, rfl⟩ : ∃ e : Fin 6400000, i = ix1 e := ⟨i 0, eq_ix1 i⟩
  show shapeCast S6400000 (lengthsT (V m c main_v1) (V m c main_v2)) shapeCasts_S1x6400000_S6400000 (ix1 e) = _
  rw [shapeCast_apply _ shapeCasts_S1x6400000_S6400000 (ix1 e) (ix2 (0 : Fin 1) e) (by
    rw [Shape.rowMajor_val_two, Shape.rowMajor_val_one]
    show 0 * 6400000 + e.val = e.val
    omega)]
  show FloatOps.sqrt (∑ k : Fin 3, sq (FloatOps.subf ((V m c main_v1 : FVec Ideal S3x6400000 .f32) (ix2 k e))
      ((V m c main_v2 : FVec Ideal S3x6400000 .f32) (ix2 k e))))
    = FloatOps.sqrt (∑ k : Fin 3, sq (disp (xyz m c) (src m c) (dst m c) e k))
  refine congrArg FloatOps.sqrt (Finset.sum_congr rfl fun k _ => ?_)
  rw [gathered_src c hs, gathered_dst c hd]
  rfl

/-- The second result: the transposed image output is `images`. -/
theorem result_images (c : Dev nD) (hs : InRange (src m c)) (hd : InRange (dst m c)) :
    Pipeline.afterTail₀ cfgs (dats m) 0 (V0 m) [hostOps1] c main_v6
      = images (xyz m c) (src m c) (dst m c) (cell m c) := by
  unfold Pipeline.afterTail₀
  show StableHlo.after hostOps1 _ (Proc.devRef .tc main_v6) = _
  after_results
  rw [out_images]
  funext i
  obtain ⟨e, k, rfl⟩ : ∃ (e : Fin 6400000) (k : Fin 3), i = ix2 e k := ⟨i 0, i 1, eq_ix2 i⟩
  rw [transpose_apply _ _ transposes_S3x6400000_S6400000x3_1_0 (ix2 e k) (ix2 k e) (fun b => by
    match b with
    | ⟨0, _⟩ => rfl
    | ⟨1, _⟩ => rfl)]
  show comp (FloatOps.subf ((V m c main_v1 : FVec Ideal S3x6400000 .f32) (ix2 k e)) ((V m c main_v2 : FVec Ideal S3x6400000 .f32) (ix2 k e)))
      ((V m c main_v3 : FVec Ideal S3x1 .f32) (ix2 k (0 : Fin 1)))
    = comp (disp (xyz m c) (src m c) (dst m c) e k) (cell m c (ix2 (⟨0, Nat.one_pos⟩ : Fin 1) k))
  rw [gathered_src c hs, gathered_dst c hd, cell_column]
  rfl

variable (m)

/-- The run of the kernel program where every index is in range: both results named, the arguments unchanged. -/
theorem run (hr : ∀ c : Dev nD, InRange (src m c) ∧ InRange (dst m c)) :
    θ_run defs (onTc (τ := τ) (main (F := Ideal))) ⟨m, fun _ => 0, ρ⟩ fun r => ∀ c : Dev nD,
      r.2.mem ((c.tc : Thread nD τ).loc main_v5) = lengths (xyz m c) (src m c) (dst m c)
      ∧ r.2.mem ((c.tc : Thread nD τ).loc main_v6) = images (xyz m c) (src m c) (dst m c) (cell m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (result_lengths c (hr c).1 (hr c).2),
      ((h c).2 main_v6 (Pipeline.mem_restRefs_of main_v6 (by decide) (by decide))).trans (result_images c (hr c).1 (hr c).2),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.PreDecode.lean ====
/-
  The precondition, read back: both index arrays address the table's rows.
-/
import proofs.«402380_j9216999817567_3_alg».proof.Defs
import proofs.«402380_j9216999817567_3_alg».proof.Proof.Gen.KernelIdeal
import proofs.«402380_j9216999817567_3_alg».proof.Proof.Gen.Pre_finite_inputs
import proofs.«402380_j9216999817567_3_alg».proof.Proof.Spec
import Idealize.ShloMosaic.Lib.ReduceAll
import Idealize.ShloMosaic.Lib.ValueIdx
import Idealize.ShloMosaic.Lib.Pipeline.Value

noncomputable section

namespace Cert.Proof.PreDecode

open Idealize.ShloMosaic Idealize.ShloMosaic.ValueIdx Idealize.SL.Sem Cert.MinImage

instance : Subsingleton Cert.Pre_finite_inputs.S_.Idx := ⟨fun _ _ => funext fun d => d.elim0⟩

/-- Under the precondition, `src` and `dst` hold indices in `[-100000, 100000)`: the precondition is a conjunction
    whose last two conjuncts say, of every entry of each index array, that it is at least `-100000` and below
    `100000`. -/
theorem inRange_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    InRange (m ((c.tc : Thread Cert.KernelIdeal.nD Cert.KernelIdeal.τ).loc Cert.KernelIdeal.main_arg1))
      ∧ InRange (m ((c.tc : Thread Cert.KernelIdeal.nD Cert.KernelIdeal.τ).loc Cert.KernelIdeal.main_arg2)) := by
  have h0 := congrFun (h c) ix0
  dsimp only [Cert.Pre_finite_inputs.fn, Cert.Pre_finite_inputs.fn_part1] at h0
  obtain ⟨h15, h21⟩ := IntOp.andi_eq_one.1 h0
  obtain ⟨-, h14⟩ := IntOp.andi_eq_one.1 h15
  refine ⟨fun e => ?_, fun e => ?_⟩
  · have he := Host.reduce_andi_all _ _ _ _ _ h14 (ix1 e)
    exact IntOp.andi_eq_one.1 he
  · have he := Host.reduce_andi_all _ _ _ _ _ h21 (ix1 e)
    exact IntOp.andi_eq_one.1 he

end Cert.Proof.PreDecode

end
-- ==== Proof.lean ====
/-
  Per-edge displacement, its length, and its signed minimum-image components: the kernel program against its
  reference, over the extended reals.

  Both programs read the coordinate table at the rows `src e` and `dst e` of every edge `e`, a negative index
  counting from the end, and subtract. The reference gathers rows of the table; the kernel program gathers columns
  of the transposed table, keeps the three components on the leading axis, runs the pointwise arithmetic blockwise
  over 80 blocks of 80000 edges, and transposes back. The two gathers read the same entry of the table. The kernel
  program's take also replaces a column whose index is outside the table by a fill word, where the reference's
  gather clamps: the claim is stated for indices in `[-100000, 100000)`, where neither happens. The length is the
  root of the sum of three squares on both sides (the host sum starts from a zero word, which adds nothing), and
  every other operation is the same extended-real operation applied at the same entry.

  The frames of the two kernel programs are the generated ones; the reference's frame is its generated run with the
  results dropped. No operation was rewritten by the idealization, so there is nothing to preserve.
-/
import proofs.«402380_j9216999817567_3_alg».proof.Defs
import proofs.«402380_j9216999817567_3_alg».proof.Proof.Gen.Kernel
import proofs.«402380_j9216999817567_3_alg».proof.Proof.Gen.Kernel.Skeleton
import proofs.«402380_j9216999817567_3_alg».proof.Proof.Gen.Kernel.Launch
import proofs.«402380_j9216999817567_3_alg».proof.Proof.Gen.Kernel.Points
import proofs.«402380_j9216999817567_3_alg».proof.Proof.Gen.Kernel.Frame
import proofs.«402380_j9216999817567_3_alg».proof.Proof.Gen.KernelIdeal
import proofs.«402380_j9216999817567_3_alg».proof.Proof.Gen.KernelIdeal.Skeleton
import proofs.«402380_j9216999817567_3_alg».proof.Proof.Gen.KernelIdeal.Launch
import proofs.«402380_j9216999817567_3_alg».proof.Proof.Gen.KernelIdeal.Points
import proofs.«402380_j9216999817567_3_alg».proof.Proof.Gen.KernelIdeal.Frame
import proofs.«402380_j9216999817567_3_alg».proof.Proof.Gen.ReferenceIdeal
import proofs.«402380_j9216999817567_3_alg».proof.Proof.Gen.ReferenceIdeal.Run
import proofs.«402380_j9216999817567_3_alg».proof.Proof.Gen.ReferenceIdeal.Read
import proofs.«402380_j9216999817567_3_alg».proof.Proof.Gen.Pre_finite_inputs
import proofs.«402380_j9216999817567_3_alg».proof.Proof.RefValue
import proofs.«402380_j9216999817567_3_alg».proof.Proof.KernelRun
import proofs.«402380_j9216999817567_3_alg».proof.Proof.PreDecode
import Idealize.ShloMosaic.Adequacy
import Idealize.ShloMosaic.Init

noncomputable section

namespace Cert.Proof

open Idealize.ShloMosaic Idealize.ShloMosaic.TcCoe Idealize.SL.Sem Cert.MinImage

theorem frame_kernel : Cert.frame_Kernel := fun m ρ _ => Cert.Kernel.Gen.frame m ρ

theorem frame_kernelIdeal : Cert.frame_KernelIdeal := fun m ρ _ => Cert.KernelIdeal.Gen.frame m ρ

/-- The reference runs, and its run leaves the arguments as they were. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the specification's `lengths` and `images` of the argument arrays: the kernel program
    by its run where every index is in range, which the precondition gives; the reference by its generated run,
    read stage by stage. -/
theorem algebraic : Cert.algebraic_KernelIdeal_ReferenceIdeal := by
  intro m ρ m' ρ' hpre hagree
  have hr : ∀ c : Dev Cert.KernelIdeal.nD,
      InRange (Cert.KernelIdeal.Result.src m c) ∧ InRange (Cert.KernelIdeal.Result.dst m c) :=
    fun c => Cert.Proof.PreDecode.inRange_of_pre m hpre c
  refine ⟨fun c => lengths (Cert.KernelIdeal.Result.xyz m c) (Cert.KernelIdeal.Result.src m c) (Cert.KernelIdeal.Result.dst m c),
    fun c => images (Cert.KernelIdeal.Result.xyz m c) (Cert.KernelIdeal.Result.src m c) (Cert.KernelIdeal.Result.dst m c)
      (Cert.KernelIdeal.Result.cell m c),
    Cert.KernelIdeal.Result.run m ρ hr, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v32_eq, Cert.ReferenceIdeal.RefValue.ref_lengths,
      (hagree c).1, (hagree c).2.1, (hagree c).2.2.1]
  · rw [(h c).2.1, Cert.ReferenceIdeal.Read.val_main_v33_eq, Cert.ReferenceIdeal.RefValue.ref_images,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
